-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x4096 : Shape := ⟨3, ![16, 1, 4096]⟩
abbrev S16 : Shape := ⟨1, ![16]⟩
abbrev S8x4096x4096 : Shape := ⟨3, ![8, 4096, 4096]⟩
abbrev S_ : Shape := ⟨0, ![]⟩

class Facts : Prop where
  bcast_S_S16x1x4096 : S_.BroadcastsInDim S16x1x4096 (![] : Fin 0 → Fin S16x1x4096.rank)
  reducesTo_S16x1x4096_S_d0_1_2 : S16x1x4096.ReducesTo [0, 1, 2] S_
  h_S_ : 0 < S_.numel
  bcast_S_S8x4096x4096 : S_.BroadcastsInDim S8x4096x4096 (![] : Fin 0 → Fin S8x4096x4096.rank)
  reducesTo_S8x4096x4096_S_d0_1_2 : S8x4096x4096.ReducesTo [0, 1, 2] S_

variable [Facts]

def fn {F : FTy → Type} [FloatOps F] (main_arg0 : FVec F S16x1x4096 .f32) (main_arg1 : IVec S16 32) (main_arg2 : FVec F S8x4096x4096 .f32) : IVec S_ 1 :=
  let main_v0 : FVec F S16x1x4096 .f32 := Host.absf main_arg0
  let main_cst : FVec F S_ .f32 := constant S_ .f32 0x7F800000#32
  let main_v1 : FVec F S16x1x4096 .f32 := broadcastInDim S16x1x4096 ![] bcast_S_S16x1x4096 main_cst
  let main_v2 : IVec S16x1x4096 1 := cmpf .olt main_v0 main_v1
  let main_c : IVec S_ 1 := constantI S_ 1 1#1
  let main_v3 : IVec S_ 1 := (fun x v => Host.reduce IntOp.andi x v reducesTo_S16x1x4096_S_d0_1_2 h_S_) main_v2 main_c
  let main_v4 : FVec F S8x4096x4096 .f32 := Host.absf main_arg2
  let main_cst_0 : FVec F S_ .f32 := constant S_ .f32 0x7F800000#32
  let main_v5 : FVec F S8x4096x4096 .f32 := broadcastInDim S8x4096x4096 ![] bcast_S_S8x4096x4096 main_cst_0
  let main_v6 : IVec S8x4096x4096 1 := cmpf .olt main_v4 main_v5
  let main_c_1 : IVec S_ 1 := constantI S_ 1 1#1
  let main_v7 : IVec S_ 1 := (fun x v => Host.reduce IntOp.andi x v reducesTo_S8x4096x4096_S_d0_1_2 h_S_) main_v6 main_c_1
  let main_v8 : IVec S_ 1 := andi main_v3 main_v7
  main_v8
-- ==== Kernel.lean ====
abbrev S16x1x4096 : Shape := ⟨3, ![16, 1, 4096]⟩
abbrev S16 : Shape := ⟨1, ![16]⟩
abbrev S8x4096x4096 : Shape := ⟨3, ![8, 4096, 4096]⟩
abbrev S_ : Shape := ⟨0, ![]⟩
abbrev S16x1 : Shape := ⟨2, ![16, 1]⟩
abbrev S16x1x1x4096 : Shape := ⟨4, ![16, 1, 1, 4096]⟩
abbrev S1x4096x512 : Shape := ⟨3, ![1, 4096, 512]⟩
abbrev S16x1x1x512 : Shape := ⟨4, ![16, 1, 1, 512]⟩
abbrev S16x512 : Shape := ⟨2, ![16, 512]⟩
abbrev S16x4096 : Shape := ⟨2, ![16, 4096]⟩
abbrev S4096x512 : Shape := ⟨2, ![4096, 512]⟩

abbrev nBuf : Space → Nat
  | .hbm => 27
  | .vmem => 7
  | .smem => 0
  | _ => 0

abbrev bufTy : (tb : Table) → Fin (tcTables nBuf tb) → BufTy
  | .hbm, ⟨0, _⟩ => ⟨S16x1x4096, .f32⟩
  | .hbm, ⟨1, _⟩ => ⟨S16, .i32⟩
  | .hbm, ⟨2, _⟩ => ⟨S8x4096x4096, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S_, .i32⟩
  | .hbm, ⟨12, _⟩ => ⟨S16, .i32⟩
  | .hbm, ⟨13, _⟩ => ⟨S16, .i1⟩
  | .hbm, ⟨14, _⟩ => ⟨S_, .i32⟩
  | .hbm, ⟨15, _⟩ => ⟨S16, .i32⟩
  | .hbm, ⟨16, _⟩ => ⟨S16, .i1⟩
  | .hbm, ⟨17, _⟩ => ⟨S_, .i32⟩
  | .hbm, ⟨18, _⟩ => ⟨S_, .i1⟩
  | .hbm, ⟨19, _⟩ => ⟨S16, .i1⟩
  | .hbm, ⟨20, _⟩ => ⟨S16, .i1⟩
  | .hbm, ⟨21, _⟩ => ⟨S16, .i1⟩
  | .hbm, ⟨22, _⟩ => ⟨S16, .i32⟩
  | .hbm, ⟨23, _⟩ => ⟨S16, .i32⟩
  | .hbm, ⟨24, _⟩ => ⟨S16, .i32⟩
  | .hbm, ⟨25, _⟩ => ⟨S16x1, .i32⟩
  | .hbm, ⟨26, _⟩ => ⟨S16x1x1x4096, .f32⟩
  | .local _ .vmem, ⟨0, _⟩ => ⟨S16x1x4096, .f32⟩
  | .local _ .vmem, ⟨1, _⟩ => ⟨S16x1, .i32⟩
  | .local _ .vmem, ⟨2, _⟩ => ⟨S1x4096x512, .f32⟩
  | .local _ .vmem, ⟨3, _⟩ => ⟨S1x4096x512, .f32⟩
  | .local _ .vmem, ⟨4, _⟩ => ⟨S16x1x1x512, .f32⟩
  | .local _ .vmem, ⟨5, _⟩ => ⟨S16x1x1x512, .f32⟩
  | .local _ .vmem, ⟨6, _⟩ => ⟨S16x512, .f32⟩
  | _, _ => ⟨S16x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage0_0 : Fin 1 → Memref sig .tc .vmem S16x1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S16x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S16 : S_.BroadcastsInDim S16 (![] : Fin 0 → Fin S16.rank)
  shapeCasts_S16_S16x1 : S16.ShapeCasts S16x1
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S16x1x4096_S16x1x4096_0_0_0 : ∀ a, (![0, 0, 0] : Fin 3 → Nat) a + S16x1x4096.size a ≤ S16x1x4096.size a
  h_S16x1x4096 : 0 < S16x1x4096.numel
  shapeCasts_S16x1x4096_S16x4096 : S16x1x4096.ShapeCasts S16x4096
  bitsLt_bf16_f32 : FTy.bits .bf16 < FTy.bits .f32
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  inb_S16x1_S16x1_0_0 : ∀ a, (![0, 0] : Fin 2 → Nat) a + S16x1.size a ≤ S16x1.size a
  h_S16x1 : 0 < S16x1.numel
  shapeCasts_S16x1_S16x1 : S16x1.ShapeCasts S16x1
  natLt_1_32 : 1 < 32
  broadcasts_S16x1_S16x512 : S16x1.Broadcasts S16x512
  inb_S16x1x1x512_S16x1x1x512_0_0_0_0 : ∀ a, (![0, 0, 0, 0] : Fin 4 → Nat) a + S16x1x1x512.size a ≤ S16x1x1x512.size a
  h_S16x1x1x512 : 0 < S16x1x1x512.numel
  shapeCasts_S16x1x1x512_S16x512 : S16x1x1x512.ShapeCasts S16x512
  shapeCasts_S16x512_S16x1x1x512 : S16x512.ShapeCasts S16x1x1x512
  dot_S16x4096_S4096x512_S16x512_1_0_0_1_n_n_wf : DotDims.WF S16x4096 S4096x512 S16x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x1x4096.size a ≤ S16x1x4096.size a
  hwx0_0 : ∀ i : grid0.Coords, EltTy.bits .f32 = 32 ∨ (Rect.block (s := S16x1x4096) S16x1x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1.size a ≤ S16x1.size a
  hwx0_1 : ∀ i : grid0.Coords, EltTy.bits .i32 = 32 ∨ (Rect.block (s := S16x1) S16x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x512.size a ≤ S8x4096x4096.size a
  hwx0_2 : ∀ i : grid0.Coords, EltTy.bits .f32 = 32 ∨ (Rect.block (s := S8x4096x4096) S1x4096x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1x1x512.size a ≤ S16x1x1x4096.size a
  hwx0_3 : ∀ i : grid0.Coords, EltTy.bits .f32 = 32 ∨ (Rect.block (s := S16x1x1x4096) S16x1x1x512.size (cc0_transform_3 i) (hinb0_3 i)).WholeWords (EltTy.packing .f32)

variable [Facts₀]

def dot_S16x4096_S4096x512_S16x512_1_0_0_1_n_n : DotDims S16x4096 S4096x512 S16x512 where
  lhsContracting := [1]
  rhsContracting := [0]
  lhsNonContracting := [0]
  rhsNonContracting := [1]
  lhsBatch := []
  rhsBatch := []
  wf := dot_S16x4096_S4096x512_S16x512_1_0_0_1_n_n_wf

abbrev win0_0 : Pipeline.Window sig grid0 :=
  Pipeline.Window.ofSpec (Memref.whole main_arg0) S16x1x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4096x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16x1x1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1x4096 : Shape := ⟨3, ![16, 1, 4096]⟩
abbrev S16 : Shape := ⟨1, ![16]⟩
abbrev S8x4096x4096 : Shape := ⟨3, ![8, 4096, 4096]⟩
abbrev S_ : Shape := ⟨0, ![]⟩
abbrev S16x1 : Shape := ⟨2, ![16, 1]⟩
abbrev S16x4096x4096 : Shape := ⟨3, ![16, 4096, 4096]⟩
abbrev S16x1x1x4096 : Shape := ⟨4, ![16, 1, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S16x1x4096, .f32⟩
  | .hbm, ⟨1, _⟩ => ⟨S16, .i32⟩
  | .hbm, ⟨2, _⟩ => ⟨S8x4096x4096, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S_, .i32⟩
  | .hbm, ⟨12, _⟩ => ⟨S16, .i32⟩
  | .hbm, ⟨13, _⟩ => ⟨S16, .i1⟩
  | .hbm, ⟨14, _⟩ => ⟨S_, .i32⟩
  | .hbm, ⟨15, _⟩ => ⟨S16, .i32⟩
  | .hbm, ⟨16, _⟩ => ⟨S16, .i1⟩
  | .hbm, ⟨17, _⟩ => ⟨S_, .i32⟩
  | .hbm, ⟨18, _⟩ => ⟨S_, .i1⟩
  | .hbm, ⟨19, _⟩ => ⟨S16, .i1⟩
  | .hbm, ⟨20, _⟩ => ⟨S16, .i1⟩
  | .hbm, ⟨21, _⟩ => ⟨S16, .i1⟩
  | .hbm, ⟨22, _⟩ => ⟨S16, .i32⟩
  | .hbm, ⟨23, _⟩ => ⟨S16, .i32⟩
  | .hbm, ⟨24, _⟩ => ⟨S16, .i32⟩
  | .hbm, ⟨25, _⟩ => ⟨S_, .i32⟩
  | .hbm, ⟨26, _⟩ => ⟨S16, .i32⟩
  | .hbm, ⟨27, _⟩ => ⟨S16, .i1⟩
  | .hbm, ⟨28, _⟩ => ⟨S_, .i32⟩
  | .hbm, ⟨29, _⟩ => ⟨S16, .i32⟩
  | .hbm, ⟨30, _⟩ => ⟨S16, .i32⟩
  | .hbm, ⟨31, _⟩ => ⟨S16, .i32⟩
  | .hbm, ⟨32, _⟩ => ⟨S16x1, .i32⟩
  | .hbm, ⟨33, _⟩ => ⟨S16x4096x4096, .f32⟩
  | .hbm, ⟨34, _⟩ => ⟨S16x1x4096, .f32⟩
  | .hbm, ⟨35, _⟩ => ⟨S16x1x1x4096, .f32⟩
  | _, _ => ⟨S16x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v0 : Ref sig .tc := ⟨.hbm, 24, rfl⟩
abbrev main_c_0 : Ref sig .tc := ⟨.hbm, 25, rfl⟩
abbrev main_v1 : Ref sig .tc := ⟨.hbm, 26, rfl⟩
abbrev main_v2 : Ref sig .tc := ⟨.hbm, 27, rfl⟩
abbrev main_c_1 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S16x1x4096_S16x1x1x4096_0_2_3 : S16x1x4096.BroadcastsInDim S16x1x1x4096 (![0, 2, 3] : Fin 3 → Fin S16x1x1x4096.rank)
  gather_S8x4096x4096_S16x1_S16x4096x4096_12_0_n_n_0_1_140964096_wf : GatherDims.WF S8x4096x4096 S16x1 S16x4096x4096 [1, 2] [0] [] [0] [] 1 ![1, 4096, 4096]
  dot_S16x1x4096_S16x4096x4096_S16x1x4096_2_1_1_2_0_0_wf : DotDims.WF S16x1x4096 S16x4096x4096 S16x1x4096 [2] [1] [1] [2] [0] [0]

variable [Facts₀]

def gather_S8x4096x4096_S16x1_S16x4096x4096_12_0_n_n_0_1_140964096 : GatherDims S8x4096x4096 S16x1 S16x4096x4096 where
  offsetDims := [1, 2]
  collapsedSliceDims := [0]
  operandBatchingDims := []
  startIndicesBatchingDims := []
  startIndexMap := [0]
  indexVectorDim := 1
  sliceSizes := ![1, 4096, 4096]
  wf := gather_S8x4096x4096_S16x1_S16x4096x4096_12_0_n_n_0_1_140964096_wf
def dot_S16x1x4096_S16x4096x4096_S16x1x4096_2_1_1_2_0_0 : DotDims S16x1x4096 S16x4096x4096 S16x1x4096 where
  lhsContracting := [2]
  rhsContracting := [1]
  lhsNonContracting := [1]
  rhsNonContracting := [2]
  lhsBatch := [0]
  rhsBatch := [0]
  wf := dot_S16x1x4096_S16x4096x4096_S16x1x4096_2_1_1_2_0_0_wf

class Facts : Prop extends Facts₀ where

variable [Facts]
-- ==== Proof.Spec.lean ====
/-
  The value both programs compute, and the routing behind it.

  Row `b` of the batch is routed to expert `indices[b] mod 8`, the remainder taken as jnp takes it: the truncated
  remainder of the division by eight, moved up by eight when it is negative, so that it lies in `0 … 7` for every 32-bit
  word. The result at row `b` and column `col` is the inner product of `x[b, 0, :]` with column `col` of that expert's
  plane of `W`, over the extended reals.
-/
import Idealize.ShloMosaic.PureOps.Ideal
import Idealize.ShloMosaic.Lib.ValueIdx

noncomputable section

open scoped BigOperators

namespace Cert.Spec

open Idealize.ShloMosaic Idealize.ShloMosaic.ValueIdx

/-- The shapes of the three arguments and of the result. -/
abbrev SX : Shape := ⟨3, ![16, 1, 4096]⟩
abbrev SI : Shape := ⟨1, ![16]⟩
abbrev SW : Shape := ⟨3, ![8, 4096, 4096]⟩
abbrev SO : Shape := ⟨4, ![16, 1, 1, 4096]⟩

/-- The divisor as both programs compute it: eight, guarded against zero. -/
def dv : BitVec 32 := Scalar.select (IntOp.cmpi .eq 8#32 0#32) 1#32 8#32

/-- The divisor is eight. -/
theorem dv_eq : dv = 8#32 := by decide

/-- jnp's remainder of one word by the divisor: the host's truncated remainder `r`, and `r + dv` when `r` is not zero
    and its sign differs from the divisor's. -/
def pm (x : BitVec 32) : BitVec 32 :=
  Scalar.select
    (IntOp.andi (IntOp.cmpi .ne (IntOp.cmpi .slt (IntOp.remsi .host x dv) 0#32) (IntOp.cmpi .slt dv 0#32))
      (IntOp.cmpi .ne (IntOp.remsi .host x dv) 0#32))
    (IntOp.addi (IntOp.remsi .host x dv) dv) (IntOp.remsi .host x dv)

/-- The expert a word routes to: its wrapped index (which is below eight for every word: the word arithmetic's
    `pm_lt`; the reduction here only gives the number its type). -/
def ex (x : BitVec 32) : Fin 8 := ⟨(pm x).toNat % 8, Nat.mod_lt _ (by decide)⟩

/-- The kernel's weight of expert `e` for a row whose wrapped index word is `r`: the comparison's bit, widened and
    converted to a float. -/
def wt (r : BitVec 32) (e : Nat) : EReal := ((((IntOp.cmpi .eq r (BitVec.ofNat 32 e)).setWidth 32).toInt : ℝ) : EReal)

/-- The result at row `b`, column `col`. -/
def Gat (X : FVec Ideal SX .f32) (A : IVec SI 32) (W : FVec Ideal SW .f32) (b : Fin 16) (col : Fin 4096) : EReal :=
  ∑ d : Fin 4096, X (ix3 b (0 : Fin 1) d) * W (ix3 (ex (A (ix1 b))) d col)

/-- The whole result array. -/
def G (X : FVec Ideal SX .f32) (A : IVec SI 32) (W : FVec Ideal SW .f32) : FVec Ideal SO .f32 :=
  fun j => Gat X A W ⟨(j 0).val, (j 0).isLt⟩ ⟨(j 3).val, (j 3).isLt⟩

theorem G_apply (X : FVec Ideal SX .f32) (A : IVec SI 32) (W : FVec Ideal SW .f32) (b : Fin 16) (col : Fin 4096) :
    G X A W (ix4 b (0 : Fin 1) (0 : Fin 1) col) = Gat X A W b col := rfl

end Cert.Spec

end
-- ==== Proof.Words.lean ====
/-
  The word arithmetic of the routing: jnp's remainder by eight lies in `0 … 7` for every 32-bit word, and the kernel's
  eight 0/1 weights pick out exactly the routed expert.
-/
import proofs.«429543_j24137716203790_2_alg».proof.Proof.Spec

noncomputable section

open scoped BigOperators

namespace Cert.Spec

open Idealize.ShloMosaic Idealize.ShloMosaic.ValueIdx

/-- The truncated remainder by the divisor is the word's signed remainder by eight: eight is neither zero nor minus one,
    so the division has no corner. -/
theorem rem_eq (x : BitVec 32) : IntOp.remsi .host x dv = x.srem 8#32 := by
  rw [dv_eq]; unfold IntOp.remsi; rw [if_neg (by simp [IntOp.SDivCorner])]

/-- Read signed, the remainder is the truncated remainder of the signed word by eight. -/
theorem rem_toInt (x : BitVec 32) : (x.srem 8#32).toInt = x.toInt.tmod 8 := by
  rw [BitVec.toInt_srem]; rfl

/-- The truncated remainder by eight lies strictly between minus eight and eight. -/
theorem rem_bounds (x : BitVec 32) : -8 < (x.srem 8#32).toInt ∧ (x.srem 8#32).toInt < 8 := by
  rw [rem_toInt]
  refine ⟨?_, ?_⟩
  · have := Int.lt_tmod_of_pos x.toInt (show (0 : Int) < 8 by decide)
    omega
  · exact Int.tmod_lt_of_pos x.toInt (by decide)

/-- The wrap of a word lying strictly between minus eight and eight: eight is added when it is negative, and the outcome
    is below eight. -/
theorem wrap_lt (r : BitVec 32) (h1 : -8 < r.toInt) (h2 : r.toInt < 8) :
    (Scalar.select
      (IntOp.andi (IntOp.cmpi .ne (IntOp.cmpi .slt r 0#32) (IntOp.cmpi .slt (8#32 : BitVec 32) 0#32))
        (IntOp.cmpi .ne r 0#32))
      (IntOp.addi r 8#32) r).toNat < 8 := by
  have hc := BitVec.toInt_eq_toNat_cond r
  have hlt := r.isLt
  by_cases hs : r.slt 0#32 = true
  · have hneg : r.toInt < 0 := by
      have := BitVec.slt_iff_toInt_lt.mp hs
      simpa using this
    have hne : (r != 0#32) = true := by
      rw [bne_iff_ne]; intro h0; rw [h0] at hneg; simp at hneg
    have hcond : IntOp.andi (IntOp.cmpi .ne (IntOp.cmpi .slt r 0#32) (IntOp.cmpi .slt (8#32 : BitVec 32) 0#32))
        (IntOp.cmpi .ne r 0#32) = 1#1 := by
      simp only [IntOp.andi, IntOp.cmpi, hs, hne]; decide
    rw [hcond]
    simp only [Scalar.select, if_true, IntOp.addi, BitVec.toNat_add]
    split at hc <;> simp at * <;> omega
  · have hs' : r.slt 0#32 = false := by simpa using hs
    have hnn : 0 ≤ r.toInt := by
      have := mt BitVec.slt_iff_toInt_lt.mpr hs
      simpa using this
    have hcond : IntOp.andi (IntOp.cmpi .ne (IntOp.cmpi .slt r 0#32) (IntOp.cmpi .slt (8#32 : BitVec 32) 0#32))
        (IntOp.cmpi .ne r 0#32) = 0#1 := by
      simp only [IntOp.andi, IntOp.cmpi, hs']
      cases (r != 0#32) <;> decide
    rw [hcond]
    simp only [Scalar.select]
    rw [if_neg (by decide)]
    split at hc <;> omega

/-- The wrapped index is below eight, for every word. -/
theorem pm_lt (x : BitVec 32) : (pm x).toNat < 8 := by
  unfold pm
  rw [rem_eq, dv_eq]
  exact wrap_lt _ (rem_bounds x).1 (rem_bounds x).2

/-- The expert's number is the wrapped index itself. -/
theorem ex_val (x : BitVec 32) : (ex x).val = (pm x).toNat :=
  Nat.mod_eq_of_lt (pm_lt x)

/-- The wrapped index is the word of its expert's number … -/
theorem pm_eq_ofNat (x : BitVec 32) : pm x = BitVec.ofNat 32 (ex x).val := by
  apply BitVec.eq_of_toNat_eq
  rw [BitVec.toNat_ofNat, ex_val]
  have := pm_lt x
  omega

/-- … and, read signed, that number. -/
theorem pm_toInt (x : BitVec 32) : (pm x).toInt = ((ex x).val : Int) := by
  rw [ex_val]
  have := pm_lt x
  exact BitVec.toInt_eq_toNat_of_lt (by omega)

/-- The weight at a word equal to the expert's word is one. -/
theorem wt_of_eq (r : BitVec 32) (e : Nat) (h : r = BitVec.ofNat 32 e) : wt r e = 1 := by
  have hb : (r == BitVec.ofNat 32 e) = true := by rw [h]; exact beq_self_eq_true _
  have hi : ((IntOp.cmpi .eq r (BitVec.ofNat 32 e)).setWidth 32).toInt = 1 := by
    simp only [IntOp.cmpi, hb]; decide
  unfold wt
  rw [hi]
  simp

/-- The weight at a word different from the expert's word is zero. -/
theorem wt_of_ne (r : BitVec 32) (e : Nat) (h : r ≠ BitVec.ofNat 32 e) : wt r e = 0 := by
  have hb : (r == BitVec.ofNat 32 e) = false := by simpa using h
  have hi : ((IntOp.cmpi .eq r (BitVec.ofNat 32 e)).setWidth 32).toInt = 0 := by
    simp only [IntOp.cmpi, hb]; decide
  unfold wt
  rw [hi]
  simp

/-- The weight is one at the row's expert and zero at the seven others. -/
theorem wt_pm (x : BitVec 32) (e : Nat) (he : e < 8) : wt (pm x) e = if e = (ex x).val then 1 else 0 := by
  by_cases h : e = (ex x).val
  · rw [if_pos h, h]
    exact wt_of_eq _ _ (pm_eq_ofNat x)
  · rw [if_neg h]
    apply wt_of_ne
    intro hp
    apply h
    have h1 := congrArg BitVec.toNat hp
    rw [BitVec.toNat_ofNat, ← ex_val] at h1
    have := (ex x).isLt
    omega

/-- A sum over the eight experts weighted by the routing keeps the routed expert's term alone. On the extended reals a
    product with zero is zero whatever the other factor, so no finiteness is asked. -/
theorem sum_wt (f : ℕ → EReal) (x : BitVec 32) : ∑ s ∈ Finset.range 8, f s * wt (pm x) s = f (ex x).val := by
  rw [Finset.sum_eq_single (ex x).val]
  · rw [wt_pm x _ (ex x).isLt, if_pos rfl, mul_one]
  · intro s hs hne
    rw [wt_pm x s (Finset.mem_range.mp hs), if_neg hne, mul_zero]
  · intro h
    exact absurd (Finset.mem_range.mpr (ex x).isLt) h

end Cert.Spec

end
-- ==== Proof.KerPieces.lean ====
/-
  What one grid point leaves behind, as pure terms of what it read.

  The body keeps a running sum in a scratch buffer. At the first expert of a column tile it first stores zeros there;
  at every expert it loads `x`, the expert's tile of `W`, the wrapped indices and the running sum, stores the updated
  sum (`k0_pay2`: the sum plus the product masked by the routing), loads it again and stores it, with two unit axes
  added (`k0_pay3`), into the output block. Every load and store goes through the whole buffer, so the stores read back
  as their payloads and the loads as the buffers' contents.
-/
import proofs.«429543_j24137716203790_2_alg».proof.Proof.Gen.KernelIdeal.Frame
import Idealize.ShloMosaic.Lib.Pipeline.Value
import Idealize.ShloMosaic.Lib.Tactic

set_option maxRecDepth 16384

noncomputable section

namespace Cert.KernelIdeal.KerValue

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → ℕ) = fun _ => 0 := by funext a; fin_cases a <;> rfl
theorem hz3 : (![0, 0, 0] : Fin 3 → ℕ) = fun _ => 0 := by funext a; fin_cases a <;> rfl
theorem hz4 : (![0, 0, 0, 0] : Fin 4 → ℕ) = fun _ => 0 := by funext a; fin_cases a <;> rfl

/-- At a later expert of a tile the scratch ends at the running sum it held, updated by this expert's masked product. -/
theorem scratch_step (c : Dev nD) (i : grid0.Coords) (arg2 : Memref sig .tc .vmem S16x1x4096 .f32) (harg2 : arg2.IsWhole) (arg3 : Memref sig .tc .vmem S16x1 .i32) (harg3 : arg3.IsWhole) (arg4 : Memref sig .tc .vmem S1x4096x512 .f32) (harg4 : arg4.IsWhole) (arg5 : Memref sig .tc .vmem S16x1x1x512 .f32) (harg5 : arg5.IsWhole) (arg6 : Memref sig .tc .vmem S16x512 .f32) (harg6 : arg6.IsWhole) (hc0 : ¬cond0_0 i)
    (x0 : Vec F S16x1x4096 .f32) (x1 : Vec F S16x1 .i32) (x2 : Vec F S1x4096x512 .f32) (xs0 : Vec F S16x512 .f32) :
    sout0_B_0 c i arg2 harg2 arg3 harg3 arg4 harg4 arg5 harg5 arg6 harg6 hc0 x0 x1 x2 xs0 = k0_pay2 i x0 x2 x1 xs0 := by
  unfold sout0_B_0
  rw [View.read_writes_eq_canon _ _ _ (scover0_B_0 c i arg2 harg2 arg3 harg3 arg4 harg4 arg5 harg5 arg6 harg6 hc0 x0 x1 x2 xs0)]
  unfold kernelRun0_B
  dsimp only
  sl_unfold_words
  rw [View.canon_unit_zero hz2]
  simp only [View.readAt_eq_ld, harg2.read_unread, harg3.read_unread, harg4.read_unread, harg6.read_unread,
    View.ld_unit_zero (S := S16x1x4096) hz3, View.ld_unit_zero (S := S1x4096x512) hz3, View.ld_unit_zero (S := S16x1) hz2,
    View.ld_unit_zero (S := S16x512) hz2]

/-- At the first expert of a tile the scratch ends at the zero block updated by that expert's masked product. -/
theorem scratch_reset (c : Dev nD) (i : grid0.Coords) (arg2 : Memref sig .tc .vmem S16x1x4096 .f32) (harg2 : arg2.IsWhole) (arg3 : Memref sig .tc .vmem S16x1 .i32) (harg3 : arg3.IsWhole) (arg4 : Memref sig .tc .vmem S1x4096x512 .f32) (harg4 : arg4.IsWhole) (arg5 : Memref sig .tc .vmem S16x1x1x512 .f32) (harg5 : arg5.IsWhole) (arg6 : Memref sig .tc .vmem S16x512 .f32) (harg6 : arg6.IsWhole) (hc0 : cond0_0 i)
    (x0 : Vec F S16x1x4096 .f32) (x1 : Vec F S16x1 .i32) (x2 : Vec F S1x4096x512 .f32) :
    sout0_A_0 c i arg2 harg2 arg3 harg3 arg4 harg4 arg5 harg5 arg6 harg6 hc0 x0 x1 x2 = k0_pay2 i x0 x2 x1 (k0_pay1 (F := F)) := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_cons_unit_zero (S := S16x512) hz2, View.readCov_unit_zero (S := S16x512) _ hz2]
  simp only [View.readAt_eq_ld, harg2.read_unread, harg3.read_unread, harg4.read_unread,
    View.ld_unit_zero (S := S16x1x4096) hz3, View.ld_unit_zero (S := S1x4096x512) hz3, View.ld_unit_zero (S := S16x1) hz2]

/-- At a later expert the output block ends at the updated running sum, two unit axes added. -/
theorem block_step (c : Dev nD) (i : grid0.Coords) (arg2 : Memref sig .tc .vmem S16x1x4096 .f32) (harg2 : arg2.IsWhole) (arg3 : Memref sig .tc .vmem S16x1 .i32) (harg3 : arg3.IsWhole) (arg4 : Memref sig .tc .vmem S1x4096x512 .f32) (harg4 : arg4.IsWhole) (arg5 : Memref sig .tc .vmem S16x1x1x512 .f32) (harg5 : arg5.IsWhole) (arg6 : Memref sig .tc .vmem S16x512 .f32) (harg6 : arg6.IsWhole) (hc0 : ¬cond0_0 i)
    (x0 : Vec F S16x1x4096 .f32) (x1 : Vec F S16x1 .i32) (x2 : Vec F S1x4096x512 .f32) (xs0 : Vec F S16x512 .f32) :
    out0_B_3 c i arg2 harg2 arg3 harg3 arg4 harg4 arg5 harg5 arg6 harg6 hc0 x0 x1 x2 xs0 = k0_pay3 (k0_pay2 i x0 x2 x1 xs0) := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  rw [View.canon_unit_zero (S := S16x1x1x512) hz4, View.readCov_unit_zero (S := S16x512) _ hz2]
  simp only [View.readAt_eq_ld, harg2.read_unread, harg3.read_unread, harg4.read_unread, harg6.read_unread,
    View.ld_unit_zero (S := S16x1x4096) hz3, View.ld_unit_zero (S := S1x4096x512) hz3, View.ld_unit_zero (S := S16x1) hz2,
    View.ld_unit_zero (S := S16x512) hz2]

/-- At the first expert the output block ends at the zero block updated by that expert's masked product, two unit axes
    added. -/
theorem block_reset (c : Dev nD) (i : grid0.Coords) (arg2 : Memref sig .tc .vmem S16x1x4096 .f32) (harg2 : arg2.IsWhole) (arg3 : Memref sig .tc .vmem S16x1 .i32) (harg3 : arg3.IsWhole) (arg4 : Memref sig .tc .vmem S1x4096x512 .f32) (harg4 : arg4.IsWhole) (arg5 : Memref sig .tc .vmem S16x1x1x512 .f32) (harg5 : arg5.IsWhole) (arg6 : Memref sig .tc .vmem S16x512 .f32) (harg6 : arg6.IsWhole) (hc0 : cond0_0 i)
    (x0 : Vec F S16x1x4096 .f32) (x1 : Vec F S16x1 .i32) (x2 : Vec F S1x4096x512 .f32) :
    out0_A_3 c i arg2 harg2 arg3 harg3 arg4 harg4 arg5 harg5 arg6 harg6 hc0 x0 x1 x2 = k0_pay3 (k0_pay2 i x0 x2 x1 (k0_pay1 (F := F))) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero (S := S16x1x1x512) hz4,
    View.readCov_eq_canon_ld _ _ _ (fun y => ⟨_, List.mem_cons_self, View.mem_set_unit_zero hz2 Facts₀.inb_S16x512_S16x512_0_0 y⟩),
    View.canon_cons_unit_zero (S := S16x512) hz2, View.ld_unit_zero (S := S16x512) hz2,
    View.readCov_unit_zero (S := S16x512) _ hz2]
  simp only [View.readAt_eq_ld, harg2.read_unread, harg3.read_unread, harg4.read_unread,
    View.ld_unit_zero (S := S16x1x4096) hz3, View.ld_unit_zero (S := S1x4096x512) hz3, View.ld_unit_zero (S := S16x1) hz2]

end Cert.KernelIdeal.KerValue

end
-- ==== Proof.KerPayload.lean ====
/-
  The body's arithmetic read at one entry, over the extended reals.

  The update of the running sum at row `b`, column `j` of a tile adds the inner product of row `b` of `x` with column `j`
  of the expert's tile, times the routing weight of that expert for row `b` (one if the row's wrapped index is the
  expert's number, zero otherwise). The changes of float format are the identity, the matrix unit's product into a zero
  accumulator is the plain sum over the contracted axis, and the casts only rename indices.
-/
import proofs.«429543_j24137716203790_2_alg».proof.Proof.Gen.KernelIdeal.Skeleton
import proofs.«429543_j24137716203790_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KerValue

open Cert.KernelIdeal Cert.KernelIdeal.Gen Idealize.ShloMosaic Idealize.ShloMosaic.ValueIdx

/-! ## The product's operand indices, axis by axis -/

theorem lhs_row (i : S16x512.Idx) (q : dot_S16x4096_S4096x512_S16x512_1_0_0_1_n_n.contr.Idx) : (dot_S16x4096_S4096x512_S16x512_1_0_0_1_n_n.lhsIdx i q 0).val = (i 0).val := by
  unfold DotDims.lhsIdx
  rw [dif_neg (show ¬(0 : Fin S16x4096.rank) ∈ dot_S16x4096_S4096x512_S16x512_1_0_0_1_n_n.lhsBatch by decide),
    dif_pos (show (0 : Fin S16x4096.rank) ∈ dot_S16x4096_S4096x512_S16x512_1_0_0_1_n_n.lhsNonContracting by decide)]
  rfl

theorem lhs_contracted (i : S16x512.Idx) (q : dot_S16x4096_S4096x512_S16x512_1_0_0_1_n_n.contr.Idx) : (dot_S16x4096_S4096x512_S16x512_1_0_0_1_n_n.lhsIdx i q 1).val = (q ⟨0, by decide⟩).val :=
  dot_S16x4096_S4096x512_S16x512_1_0_0_1_n_n.lhsIdx_val_of_single rfl i q

theorem rhs_contracted (i : S16x512.Idx) (q : dot_S16x4096_S4096x512_S16x512_1_0_0_1_n_n.contr.Idx) : (dot_S16x4096_S4096x512_S16x512_1_0_0_1_n_n.rhsIdx i q 0).val = (q ⟨0, by decide⟩).val :=
  dot_S16x4096_S4096x512_S16x512_1_0_0_1_n_n.rhsIdx_val_of_single rfl i q

theorem rhs_col (i : S16x512.Idx) (q : dot_S16x4096_S4096x512_S16x512_1_0_0_1_n_n.contr.Idx) : (dot_S16x4096_S4096x512_S16x512_1_0_0_1_n_n.rhsIdx i q 1).val = (i 1).val := by
  unfold DotDims.rhsIdx
  rw [dif_neg (show ¬(1 : Fin S4096x512.rank) ∈ dot_S16x4096_S4096x512_S16x512_1_0_0_1_n_n.rhsBatch by decide),
    dif_pos (show (1 : Fin S4096x512.rank) ∈ dot_S16x4096_S4096x512_S16x512_1_0_0_1_n_n.rhsNonContracting by decide)]
  rfl

/-! ## One expert's product at an entry -/

/-- Row `b` of `x` times column `j` of the loaded tile: the sum over the 4096 contracted positions. -/
theorem product_at (x0 : Vec Ideal S16x1x4096 .f32) (x2 : Vec Ideal S1x4096x512 .f32) (b : Fin 16) (j : Fin 512) :
    matmul (F := Ideal) dot_S16x4096_S4096x512_S16x512_1_0_0_1_n_n none (truncf .bf16 (shapeCast S16x4096 x0 Facts₀.shapeCasts_S16x1x4096_S16x4096) Facts₀.bitsLt_bf16_f32)
        (truncf .bf16 (shapeCast S4096x512 x2 Facts₀.shapeCasts_S1x4096x512_S4096x512) Facts₀.bitsLt_bf16_f32)
        (constant S16x512 .f32 0x00000000#32) (ix2 b j)
      = ∑ d : Fin 4096, x0 (ix3 b (0 : Fin 1) d) * x2 (ix3 (0 : Fin 1) d j) := by
  simp only [matmul]
  rw [Ideal.matmul_constant_zero_apply, ← Equiv.sum_comp (contrEquiv1 dot_S16x4096_S4096x512_S16x512_1_0_0_1_n_n 4096 rfl rfl).symm]
  refine Finset.sum_congr rfl fun k _ => ?_
  have hk := contrEquiv1_symm_val dot_S16x4096_S4096x512_S16x512_1_0_0_1_n_n 4096 rfl rfl k
  have el : dot_S16x4096_S4096x512_S16x512_1_0_0_1_n_n.lhsIdx (ix2 b j) ((contrEquiv1 dot_S16x4096_S4096x512_S16x512_1_0_0_1_n_n 4096 rfl rfl).symm k) = ix2 b k := funext fun a => Fin.ext (by
    match a with
    | ⟨0, _⟩ => exact lhs_row _ _
    | ⟨1, _⟩ => exact (lhs_contracted _ _).trans hk)
  have er : dot_S16x4096_S4096x512_S16x512_1_0_0_1_n_n.rhsIdx (ix2 b j) ((contrEquiv1 dot_S16x4096_S4096x512_S16x512_1_0_0_1_n_n 4096 rfl rfl).symm k) = ix2 k j := funext fun a => Fin.ext (by
    match a with
    | ⟨0, _⟩ => exact (rhs_contracted _ _).trans hk
    | ⟨1, _⟩ => exact rhs_col _ _)
  rw [el, er]
  have ex0 : shapeCast S16x4096 x0 Facts₀.shapeCasts_S16x1x4096_S16x4096 (ix2 b k) = x0 (ix3 b (0 : Fin 1) k) :=
    shapeCast_apply x0 _ (ix2 b k) (ix3 b (0 : Fin 1) k) (by
      rw [Shape.rowMajor_val_three, Shape.rowMajor_val_two]
      show (b.val * 1 + 0) * 4096 + k.val = b.val * 4096 + k.val
      omega)
  have ex2 : shapeCast S4096x512 x2 Facts₀.shapeCasts_S1x4096x512_S4096x512 (ix2 k j) = x2 (ix3 (0 : Fin 1) k j) :=
    shapeCast_1ab_ab_apply x2 _ k j
  exact congrArg₂ (· * ·) ex0 ex2

/-- The weight's row: the routing weight of expert `e` for row `b`, from the block of wrapped indices. -/
theorem weight_at (x1 : Vec Ideal S16x1 .i32) (e : BitVec 32) (b : Fin 16) (j : Fin 512) :
    broadcastTo S16x512 (sitofp (F := Ideal) .f32 (extui 32 (cmpi .eq (shapeCast S16x1 x1 Facts₀.shapeCasts_S16x1_S16x1) (broadcast S16x1 e)) Facts₀.natLt_1_32))
        Facts₀.broadcasts_S16x1_S16x512 (ix2 b j)
      = ((((IntOp.cmpi .eq (x1 (ix2 b (0 : Fin 1))) e).setWidth 32).toInt : ℝ) : EReal) := by
  rw [broadcastTo_apply _ _ (ix2 b j) (ix2 b (0 : Fin 1)) (by
    intro a
    match a with
    | ⟨0, _⟩ => rfl
    | ⟨1, _⟩ => rfl)]
  rw [shapeCast_self]
  rfl

/-- One expert's masked product at row `b`, column `j` of the tile: the inner product times the routing weight. -/
def term (x0 : Vec Ideal S16x1x4096 .f32) (x2 : Vec Ideal S1x4096x512 .f32) (x1 : Vec Ideal S16x1 .i32) (e : ℕ) (b : Fin 16) (j : Fin 512) : EReal :=
  (∑ d : Fin 4096, x0 (ix3 b (0 : Fin 1) d) * x2 (ix3 (0 : Fin 1) d j)) * Cert.Spec.wt (x1 (ix2 b (0 : Fin 1))) e

/-- The update of the running sum at an entry: what it held plus this expert's masked product. -/
theorem update_at (i : grid0.Coords) (x0 : Vec Ideal S16x1x4096 .f32) (x2 : Vec Ideal S1x4096x512 .f32) (x1 : Vec Ideal S16x1 .i32)
    (acc : Vec Ideal S16x512 .f32) (b : Fin 16) (j : Fin 512) :
    k0_pay2 (F := Ideal) i x0 x2 x1 acc (ix2 b j) = acc (ix2 b j) + term x0 x2 x1 (i 1).val b j := by
  unfold k0_pay2
  rw [shapeCast_self]
  show acc (ix2 b j) + _ * _ = _
  rw [product_at, weight_at]
  rfl

/-- The block the first expert of a tile starts from is zero everywhere. -/
theorem zero_at (y : S16x512.Idx) : k0_pay1 (F := Ideal) y = 0 := by
  unfold k0_pay1
  rw [shapeCast_self]
  show Ideal.ofBits .f32 0x00000000#32 = 0
  exact Ideal.ofBits_zero_f32

/-- The output block is the running sum with two unit axes added. -/
theorem widen_at (v : Vec Ideal S16x512 .f32) (b : Fin 16) (j : Fin 512) :
    k0_pay3 (F := Ideal) v (ix4 b (0 : Fin 1) (0 : Fin 1) j) = v (ix2 b j) := by
  unfold k0_pay3
  exact shapeCast_apply v _ (ix4 b (0 : Fin 1) (0 : Fin 1) j) (ix2 b j) (by
    rw [Shape.rowMajor_val_four, Shape.rowMajor_val_two]
    show b.val * 512 + j.val = ((b.val * 1 + 0) * 1 + 0) * 512 + j.val
    omega)

end Cert.KernelIdeal.KerValue

end
-- ==== Proof.KerBlocks.lean ====
/-
  What the body's loads read at a grid point, in terms of the arguments.

  Point `t` of the 8 × 8 grid is column tile `t / 8`, expert `t % 8`. The block of `x` is the whole array at every point;
  the block of `W` is columns `512·(t / 8) …` of expert `t % 8`'s plane; the block of indices is the whole column of
  wrapped indices, which @main computed before the call: entry `b` is jnp's remainder by eight of `indices[b]`.
-/
import proofs.«429543_j24137716203790_2_alg».proof.Proof.Gen.KernelIdeal.Frame
import proofs.«429543_j24137716203790_2_alg».proof.Proof.Spec
import Idealize.ShloMosaic.Lib.StableHlo.Run
import Idealize.ShloMosaic.Lib.ValueIdx
import Idealize.ShloMosaic.Lib.Pipeline.Value

noncomputable section

namespace Cert.KernelIdeal.KerValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The printed index maps and the grid's coordinates, decided over the 64 points: `x` and the indices stay at block
    zero, `W`'s block is (expert, 0, tile), the output's block is (0, 0, 0, tile), the second grid coordinate is the
    expert. -/
theorem idx_facts : ∀ t : Fin cfg0.N,
    win0_0.index t (0 : Fin 3) = 0 ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val % 8 ∧ win0_2.index t (1 : Fin 3) = 0 ∧ win0_2.index t (2 : Fin 3) = t.val / 8
    ∧ win0_3.index t (0 : Fin 4) = 0 ∧ win0_3.index t (1 : Fin 4) = 0 ∧ win0_3.index t (2 : Fin 4) = 0
    ∧ win0_3.index t (3 : Fin 4) = t.val / 8
    ∧ (grid0.coords t 1).val = t.val % 8 :=
  (by decide +kernel : ∀ t : Fin grid0.N, _)

-- the chain of host operations is read in one simplification pass
set_option maxHeartbeats 2000000 in
/-- The column of wrapped indices as the call finds it: the sixteen words of `indices`, each reduced as jnp reduces
    it, laid out as a [16, 1] array. -/
theorem routing (c : Dev nD) :
    (V m c main_v1 : S16x1.Idx → BitVec 32)
      = shapeCast S16x1 (fun i : S16.Idx => Cert.Spec.pm (m ((c : Thread nD τ).loc main_arg1) i)) Facts₀.shapeCasts_S16_S16x1 := by
  dsimp only [V]
  simp only [hostOps0, hostOps0_1, hostOps0_2, List.flatten_cons, List.flatten_nil, List.append_nil, List.cons_append, List.nil_append]
  after_results_simp
  rfl

/-- Entry `b` of it. -/
theorem routing_at (c : Dev nD) (b : Fin 16) :
    (V m c main_v1 : S16x1.Idx → BitVec 32) (ix2 b (0 : Fin 1)) = Cert.Spec.pm (m ((c : Thread nD τ).loc main_arg1) (ix1 b)) := by
  rw [routing]
  exact shapeCast_apply (fun i : S16.Idx => Cert.Spec.pm (m ((c : Thread nD τ).loc main_arg1) i)) _ (ix2 b (0 : Fin 1)) (ix1 b) (by
    rw [Shape.rowMajor_val_one, Shape.rowMajor_val_two]
    show b.val = b.val * 1 + 0
    omega)

/-- The block of `x` at any point is the whole argument. -/
theorem x_block (c : Dev nD) (t : Fin cfg0.N) (b : Fin 16) (d : Fin 4096) :
    (iblk m c 0 t : Vec Ideal S16x1x4096 .f32) (ix3 b (0 : Fin 1) d) = m ((c : Thread nD τ).loc main_arg0) (ix3 b (0 : Fin 1) d) := by
  obtain ⟨e0, e1, e2, -⟩ := idx_facts t
  unfold iblk
  rw [View.read_apply]
  show V m c main_arg0 _ = _
  rw [V_main_arg0]
  congr 1
  funext a
  apply Fin.ext
  match a with
  | ⟨0, _⟩ => show win0_0.index t (0 : Fin 3) * 16 + 1 * b.val = b.val; rw [e0]; omega
  | ⟨1, _⟩ => show win0_0.index t (1 : Fin 3) * 1 + 1 * 0 = 0; rw [e1]
  | ⟨2, _⟩ => show win0_0.index t (2 : Fin 3) * 4096 + 1 * d.val = d.val; rw [e2]; omega

/-- The block of wrapped indices at any point is the whole column. -/
theorem r_block (c : Dev nD) (t : Fin cfg0.N) (b : Fin 16) :
    (iblk m c 1 t : Vec Ideal S16x1 .i32) (ix2 b (0 : Fin 1)) = Cert.Spec.pm (m ((c : Thread nD τ).loc main_arg1) (ix1 b)) := by
  obtain ⟨-, -, -, e0, e1, -⟩ := idx_facts t
  unfold iblk
  rw [View.read_apply]
  show V m c main_v1 _ = _
  rw [← routing_at m c b]
  congr 1
  funext a
  apply Fin.ext
  match a with
  | ⟨0, _⟩ => show win0_1.index t (0 : Fin 2) * 16 + 1 * b.val = b.val; rw [e0]; omega
  | ⟨1, _⟩ => show win0_1.index t (1 : Fin 2) * 1 + 1 * 0 = 0; rw [e1]

/-- The block of `W` at point `t` is expert `t % 8`'s plane, columns `512·(t / 8)` onwards. -/
theorem w_block (c : Dev nD) (t : Fin cfg0.N) (d : Fin 4096) (j : Fin 512) (e : Fin 8) (col : Fin 4096)
    (he : e.val = t.val % 8) (hcol : col.val = 512 * (t.val / 8) + j.val) :
    (iblk m c 2 t : Vec Ideal S1x4096x512 .f32) (ix3 (0 : Fin 1) d j) = m ((c : Thread nD τ).loc main_arg2) (ix3 e d col) := by
  obtain ⟨-, -, -, -, -, e0, e1, e2, -⟩ := idx_facts t
  unfold iblk
  rw [View.read_apply]
  show V m c main_arg2 _ = _
  rw [V_main_arg2]
  congr 1
  funext a
  apply Fin.ext
  match a with
  | ⟨0, _⟩ => show win0_2.index t (0 : Fin 3) * 1 + 1 * 0 = e.val; rw [e0]; omega
  | ⟨1, _⟩ => show win0_2.index t (1 : Fin 3) * 4096 + 1 * d.val = d.val; rw [e1]; omega
  | ⟨2, _⟩ => show win0_2.index t (2 : Fin 3) * 512 + 1 * j.val = col.val; rw [e2]; omega

end Cert.KernelIdeal.KerValue

end
-- ==== Proof.KerFold.lean ====
/-
  The running sum over the eight experts of a column tile.

  Inside a tile the scratch buffer is reset at expert 0 and updated at experts 1 … 7; after expert 7 its entry at row
  `b`, column `j` is the sum over the experts `s` of `(x[b] · W[s][:, col]) · weight(b, s)` with `col = 512·tile + j`. The
  weights are one at the row's routed expert and zero elsewhere, so the sum is the routed expert's inner product: the
  specification's value at `(b, col)`. The output block written back at the tile's last point is that buffer with two
  unit axes added.
-/
import proofs.«429543_j24137716203790_2_alg».proof.Proof.Gen.KernelIdeal.Value
import proofs.«429543_j24137716203790_2_alg».proof.Proof.KerPieces
import proofs.«429543_j24137716203790_2_alg».proof.Proof.KerPayload
import proofs.«429543_j24137716203790_2_alg».proof.Proof.KerBlocks
import proofs.«429543_j24137716203790_2_alg».proof.Proof.Words

noncomputable section

open scoped BigOperators

namespace Cert.KernelIdeal.KerValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The three input blocks at a point, at their literal types. -/
abbrev xb (c : Dev nD) (t : Fin cfg0.N) : Vec Ideal S16x1x4096 .f32 := iblk m c 0 t
abbrev rb (c : Dev nD) (t : Fin cfg0.N) : Vec Ideal S16x1 .i32 := iblk m c 1 t
abbrev wb (c : Dev nD) (t : Fin cfg0.N) : Vec Ideal S1x4096x512 .f32 := iblk m c 2 t

/-- What point `n` adds to the running sum at an entry (zero past the grid, where it is never used). -/
def addend (c : Dev nD) (n : ℕ) (y : S16x512.Idx) : EReal :=
  if h : n < cfg0.N then
    term (xb m c ⟨n, h⟩) (wb m c ⟨n, h⟩) (rb m c ⟨n, h⟩) ((grid0.coords (⟨n, h⟩ : Fin cfg0.N)) 1).val
      ⟨(y 0).val, idx2_lt0 y⟩ ⟨(y 1).val, idx2_lt1 y⟩
  else 0

/-- At the first expert of a tile the scratch restarts from zero plus that point's addend, whatever it held. -/
theorem reset_at (c : Dev nD) (n : ℕ) (hb : n < cfg0.N) (h0 : n % 8 = 0) (acc : Vec Ideal S16x512 .f32) (y : S16x512.Idx) :
    Value.scAt0_0 m c n hb acc y = 0 + addend m c n y := by
  unfold Value.scAt0_0
  rw [dif_pos h0]
  refine (congrFun (scratch_reset (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _)
    ((hcond0_0 (⟨n, hb⟩ : Fin cfg0.N)).mpr h0) (xb m c ⟨n, hb⟩) (rb m c ⟨n, hb⟩) (wb m c ⟨n, hb⟩)) y).trans ?_
  obtain ⟨b, j, rfl⟩ : ∃ (b : Fin 16) (j : Fin 512), y = ix2 b j := ⟨y 0, y 1, eq_ix2 y⟩
  rw [update_at, zero_at]
  unfold addend
  rw [dif_pos hb]

/-- At a later expert it is what the point before left plus this point's addend. -/
theorem step_at (c : Dev nD) (n : ℕ) (hb : n < cfg0.N) (h0 : ¬n % 8 = 0) (acc : Vec Ideal S16x512 .f32) (y : S16x512.Idx) :
    Value.scAt0_0 m c n hb acc y = acc y + addend m c n y := by
  unfold Value.scAt0_0
  rw [dif_neg h0]
  refine (congrFun (scratch_step (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _)
    (fun h => h0 ((hcond0_0 (⟨n, hb⟩ : Fin cfg0.N)).mp h)) (xb m c ⟨n, hb⟩) (rb m c ⟨n, hb⟩) (wb m c ⟨n, hb⟩) acc) y).trans ?_
  obtain ⟨b, j, rfl⟩ : ∃ (b : Fin 16) (j : Fin 512), y = ix2 b j := ⟨y 0, y 1, eq_ix2 y⟩
  rw [update_at]
  unfold addend
  rw [dif_pos hb]

/-- THE FOLD: after point `t` the scratch holds, at each entry, the addends of the tile's points up to `t`. -/
theorem scratch_sum (c : Dev nD) (t : Fin cfg0.N) (y : S16x512.Idx) :
    (outsAt0 m c t.val t.isLt).2 y = 0 + ∑ s ∈ Finset.range (t.val % 8 + 1), addend m c (8 * (t.val / 8) + s) y := by
  rw [Value.soutsAt0_0_eq m c t]
  exact Pipeline.accAt_add_apply (fun n h => Value.scAt0_0 m c n h (VS0_0.read (Elt Ideal) VS0_0.junk)) (Value.scAt0_0 m c)
    (fun _ => 0) (addend m c) (8 * (t.val / 8)) 7
    (fun h i => reset_at m c _ h (Nat.mul_mod_right 8 _) _ i)
    (fun n h acc i h1 h2 => step_at m c n h (by omega) acc i)
    (t.val % 8) (by omega) _ y

end Cert.KernelIdeal.KerValue

end
-- ==== Proof.KernelValue.lean ====
/-
  The kernel's run and its result: the accumulator's fold over the eight experts of a column tile, flushed at the
  tile's last point, is `Spec.G` of the arguments.
-/
import proofs.«429543_j24137716203790_2_alg».proof.Proof.Gen.KernelIdeal.Value
import proofs.«429543_j24137716203790_2_alg».proof.Proof.Spec
import proofs.«429543_j24137716203790_2_alg».proof.Proof.Words
import proofs.«429543_j24137716203790_2_alg».proof.Proof.KerFold

noncomputable section

open scoped BigOperators

namespace Cert.KernelIdeal.KerValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The three arguments as launched, at their literal types. -/
abbrev Xa (c : Dev nD) : FVec Ideal Cert.Spec.SX .f32 := m ((c : Thread nD τ).loc main_arg0)
abbrev Aa (c : Dev nD) : IVec Cert.Spec.SI 32 := m ((c : Thread nD τ).loc main_arg1)
abbrev Wa (c : Dev nD) : FVec Ideal Cert.Spec.SW .f32 := m ((c : Thread nD τ).loc main_arg2)

/-- Point `8q + s` is expert `s` of tile `q`: its addend at row `b`, column `j` of the tile is the inner product of
    `x[b]` with column `512 q + j` of expert `s`'s plane, times the routing weight of expert `s` for row `b`. -/
theorem addend_at (c : Dev nD) (q s : ℕ) (hq : q < 8) (hs : s < 8) (b : Fin 16) (j : Fin 512) (col : Fin 4096)
    (hcol : col.val = 512 * q + j.val) :
    addend m c (8 * q + s) (ix2 b j)
      = (∑ d : Fin 4096, (Xa m c) (ix3 b (0 : Fin 1) d) * (Wa m c) (ix3 (⟨s, hs⟩ : Fin 8) d col))
          * Cert.Spec.wt (Cert.Spec.pm ((Aa m c) (ix1 b))) s := by
  have hN : 8 * q + s < cfg0.N := by rw [show cfg0.N = 64 from N_0]; omega
  unfold addend
  rw [dif_pos hN]
  unfold term
  have hco : ((grid0.coords (⟨8 * q + s, hN⟩ : Fin cfg0.N)) 1).val = s := by
    have := (idx_facts (⟨8 * q + s, hN⟩ : Fin cfg0.N)).2.2.2.2.2.2.2.2.2.2.2.2
    rw [this]; show (8 * q + s) % 8 = s; omega
  rw [hco]
  show (∑ d : Fin 4096, xb m c ⟨8 * q + s, hN⟩ (ix3 b (0 : Fin 1) d) * wb m c ⟨8 * q + s, hN⟩ (ix3 (0 : Fin 1) d j))
      * Cert.Spec.wt (rb m c ⟨8 * q + s, hN⟩ (ix2 b (0 : Fin 1))) s = _
  rw [show rb m c ⟨8 * q + s, hN⟩ (ix2 b (0 : Fin 1)) = _ from r_block m c ⟨8 * q + s, hN⟩ b]
  refine congrArg (· * _) (Finset.sum_congr rfl fun d _ => ?_)
  rw [show xb m c ⟨8 * q + s, hN⟩ (ix3 b (0 : Fin 1) d) = _ from x_block m c ⟨8 * q + s, hN⟩ b d,
    show wb m c ⟨8 * q + s, hN⟩ (ix3 (0 : Fin 1) d j) = _ from
      w_block m c ⟨8 * q + s, hN⟩ d j ⟨s, hs⟩ col (by show s = (8 * q + s) % 8; omega)
        (by show col.val = 512 * ((8 * q + s) / 8) + j.val; rw [hcol]; congr 2; omega)]

/-- THE TILE'S VALUE: after the last expert of tile `q` the scratch holds the specification's value at every entry —
    the eight weighted products add up to the routed expert's alone. -/
theorem tile_value (c : Dev nD) (t : Fin cfg0.N) (h7 : t.val % 8 = 7) (b : Fin 16) (j : Fin 512) (col : Fin 4096)
    (hcol : col.val = 512 * (t.val / 8) + j.val) :
    (outsAt0 m c t.val t.isLt).2 (ix2 b j) = Cert.Spec.Gat (Xa m c) (Aa m c) (Wa m c) b col := by
  have hN : t.val < 64 := lt_of_lt_of_eq t.isLt (show cfg0.N = 64 from N_0)
  rw [scratch_sum, h7, zero_add]
  have key := Cert.Spec.sum_wt
    (fun s => if hs : s < 8 then ∑ d : Fin 4096, (Xa m c) (ix3 b (0 : Fin 1) d) * (Wa m c) (ix3 (⟨s, hs⟩ : Fin 8) d col) else 0)
    ((Aa m c) (ix1 b))
  rw [dif_pos (Cert.Spec.ex ((Aa m c) (ix1 b))).isLt] at key
  refine Eq.trans (Finset.sum_congr rfl fun s hs => ?_) key
  rw [dif_pos (Finset.mem_range.mp hs)]
  exact addend_at m c (t.val / 8) s (by omega) (Finset.mem_range.mp hs) b j col hcol

/-- After a later expert of a tile the output block is the scratch with two unit axes added. -/
theorem block_is_scratch (c : Dev nD) (t : Fin cfg0.N) (h0 : ¬t.val % 8 = 0) :
    (outsAt0 m c t.val t.isLt).1 = k0_pay3 (F := Ideal) (outsAt0 m c t.val t.isLt).2 := by
  rw [outsAt0_B m c t h0]
  dsimp only
  rw [block_step (F := Ideal), scratch_step (F := Ideal)]

/-- The specification's array at an index whose first and last coordinates are `b` and `col`. -/
theorem G_at (X : FVec Ideal Cert.Spec.SX .f32) (A : IVec Cert.Spec.SI 32) (W : FVec Ideal Cert.Spec.SW .f32)
    (i : Cert.Spec.SO.Idx) (b : Fin 16) (col : Fin 4096) (h0 : (i 0).val = b.val) (h3 : (i 3).val = col.val) :
    Cert.Spec.G X A W i = Cert.Spec.Gat X A W b col := by
  unfold Cert.Spec.G
  congr 1
  · exact Fin.ext h0
  · exact Fin.ext h3

/-- WHAT A TILE'S LAST POINT WRITES BACK is its block of the specification's array. -/
theorem flushed_eq (c : Dev nD) (t : Fin cfg0.N) (hf : (cfg0.win 3).flush t = true) :
    (dats m 0 c).flushed 3 t
      = ((cfg0.win 3).blk t).view.read (Elt Ideal) (Cert.Spec.G (Xa m c) (Aa m c) (Wa m c)) := by
  have h7 : t.val % 8 = 7 := (flush0_3 t).mp hf
  have hN : t.val < 64 := lt_of_lt_of_eq t.isLt (show cfg0.N = 64 from N_0)
  obtain ⟨-, -, -, -, -, -, -, -, e0, e1, e2, e3, -⟩ := idx_facts t
  rw [Value.flushed3, block_is_scratch m c t (by omega)]
  funext y
  obtain ⟨b, u, v, j, rfl⟩ : ∃ (b : Fin 16) (u v : Fin 1) (j : Fin 512), y = ix4 b u v j := ⟨y 0, y 1, y 2, y 3, eq_ix4 y⟩
  obtain rfl : u = 0 := Subsingleton.elim _ _
  obtain rfl : v = 0 := Subsingleton.elim _ _
  show k0_pay3 (F := Ideal) (outsAt0 m c t.val t.isLt).2 (ix4 b (0 : Fin 1) (0 : Fin 1) j) = _
  rw [widen_at, View.read_apply]
  have hc : 512 * (t.val / 8) + j.val < 4096 := by have := j.isLt; omega
  rw [tile_value m c t h7 b j ⟨512 * (t.val / 8) + j.val, hc⟩ rfl]
  symm
  refine G_at _ _ _ _ b ⟨512 * (t.val / 8) + j.val, hc⟩ ?_ ?_
  · show win0_3.index t (0 : Fin 4) * 16 + 1 * b.val = b.val; rw [e0]; omega
  · show win0_3.index t (3 : Fin 4) * 512 + 1 * j.val = 512 * (t.val / 8) + j.val; rw [e3]; omega

/-- An index of the result is in point `t`'s block iff each coordinate is in the block's range on its axis. -/
theorem mem_blk (t : Fin cfg0.N) (i : S16x1x1x4096.Idx) :
    i ∈ ((cfg0.win 3).blk t).view.set
      ↔ ∀ a : Fin 4, win0_3.index t a * S16x1x1x512.size a ≤ (i a).val ∧ (i a).val < win0_3.index t a * S16x1x1x512.size a + S16x1x1x512.size a := by
  show i ∈ ((View.whole main_v2).slice (win0_3.rect t)).set ↔ _
  rw [View.set_slice_whole, Rect.mem_set_unit]
  exact Iff.rfl

/-- Every index of the result lies in the block of its column tile's last point. -/
theorem cover (i : S16x1x1x4096.Idx) : ∃ t : Fin cfg0.N, (cfg0.win 3).flush t = true ∧ i ∈ ((cfg0.win 3).blk t).view.set := by
  have h0 : (i 0).val < 16 := (i 0).isLt
  have h1 : (i 1).val < 1 := (i 1).isLt
  have h2 : (i 2).val < 1 := (i 2).isLt
  have h3 : (i 3).val < 4096 := (i 3).isLt
  have hN : 8 * ((i 3).val / 512) + 7 < cfg0.N := by rw [show cfg0.N = 64 from N_0]; omega
  refine ⟨⟨8 * ((i 3).val / 512) + 7, hN⟩, (flush0_3 _).mpr (by show (8 * ((i 3).val / 512) + 7) % 8 = 7; omega), ?_⟩
  obtain ⟨-, -, -, -, -, -, -, -, e0, e1, e2, e3, -⟩ := idx_facts (⟨8 * ((i 3).val / 512) + 7, hN⟩ : Fin cfg0.N)
  have e3' : win0_3.index (⟨8 * ((i 3).val / 512) + 7, hN⟩ : Fin cfg0.N) (3 : Fin 4) = (i 3).val / 512 := by
    rw [e3]; show (8 * ((i 3).val / 512) + 7) / 8 = (i 3).val / 512; omega
  rw [mem_blk]
  intro a
  match a with
  | ⟨0, _⟩ => show win0_3.index _ (0 : Fin 4) * 16 ≤ (i 0).val ∧ (i 0).val < win0_3.index _ (0 : Fin 4) * 16 + 16; rw [e0]; omega
  | ⟨1, _⟩ => show win0_3.index _ (1 : Fin 4) * 1 ≤ (i 1).val ∧ (i 1).val < win0_3.index _ (1 : Fin 4) * 1 + 1; rw [e1]; omega
  | ⟨2, _⟩ => show win0_3.index _ (2 : Fin 4) * 1 ≤ (i 2).val ∧ (i 2).val < win0_3.index _ (2 : Fin 4) * 1 + 1; rw [e2]; omega
  | ⟨3, _⟩ => show win0_3.index _ (3 : Fin 4) * 512 ≤ (i 3).val ∧ (i 3).val < win0_3.index _ (3 : Fin 4) * 512 + 512; rw [e3']; omega

/-- THE RESULT ARRAY after the run is the specification's. -/
theorem final (c : Dev nD) :
    (dats m 0 c).arrAt 3 cfg0.N = Cert.Spec.G (Xa m c) (Aa m c) (Wa m c) :=
  (dats m 0 c).arrAt_eq_of_cover 3 (Cert.Spec.G (Xa m c) (Aa m c) (Wa m c)) (fun t hf => flushed_eq m c t hf) cover

/-- Every weakly fair execution of the kernel's @main terminates with its result at `Spec.G` of the arguments and
    the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2)
          = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final m c), (h c).2⟩) (Value.run_blocks m ρ)

end Cert.KernelIdeal.KerValue

end
-- ==== Proof.RefValue.lean ====
/-
  The reference's run and its result: the wrapped indices, the gather of each row's expert plane, the batched
  contraction and the added unit axis, read at an index, are `Spec.G` of the arguments.
-/
import proofs.«429543_j24137716203790_2_alg».proof.Proof.Gen.ReferenceIdeal
import proofs.«429543_j24137716203790_2_alg».proof.Proof.Spec
import proofs.«429543_j24137716203790_2_alg».proof.Proof.Words
import Idealize.ShloMosaic.Lib.StableHlo.Run
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

section AnyValues

variable {F : FTy → Type} [FloatOps F]

/-! ## The program as a straight line -/

/-- @main's operations in order, the call of the outlined remainder unfolded at its site: the constant eight; the
    remainder's twenty-one (the divisor's guarded copy through the outlined select, the truncated remainder, the two
    sign tests, their disagreement, the non-zero test, the sum, the final select); the negative-index wrap's seven; the
    broadcast to a column of start indices, the gather, the batched contraction and the added unit axis. -/
abbrev ops : List (HloOp τ sig (Elt F)) :=
  [ nullary main_c (constantI S_ 32 8#32),
    TRef.unary (.of main_c : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S16 ![] bcast_S_S16),
    TRef.binary (.of main_arg1 : TRef sig ⟨S16, .i32⟩) main_call0.v3 main_call0.v4 Host.remsi,
    TRef.nullary main_call0.c_1 (constantI S_ 32 0#32),
    TRef.unary main_call0.c_1 main_call0.v5 (broadcastInDim S16 ![] bcast_S_S16),
    TRef.binary main_call0.v4 main_call0.v5 main_call0.v6 (cmpi .ne),
    TRef.nullary main_call0.c_2 (constantI S_ 32 0#32),
    TRef.unary main_call0.c_2 main_call0.v7 (broadcastInDim S16 ![] bcast_S_S16),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S16 ![] bcast_S_S16),
    TRef.binary main_call0.v8 main_call0.v10 main_call0.v11 (cmpi .ne),
    TRef.binary main_call0.v11 main_call0.v6 main_call0.v12 andi,
    TRef.unary main_call0.call0.v0 main_call0.v13 (broadcastInDim S16 ![] bcast_S_S16),
    TRef.binary main_call0.v4 main_call0.v13 main_call0.v14 addi,
    TRef.ternary main_call0.v12 main_call0.v14 main_call0.v4 main_call0.v15 select,
    nullary main_c_0 (constantI S_ 32 0#32),
    unary main_c_0 main_v1 (broadcastInDim S16 ![] bcast_S_S16 : (⟨S_, .i32⟩ : BufTy).Contents (Elt F) → (⟨S16, .i32⟩ : BufTy).Contents (Elt F)),
    binary main_v0 main_v1 main_v2 (cmpi .slt : (⟨S16, .i32⟩ : BufTy).Contents (Elt F) → (⟨S16, .i32⟩ : BufTy).Contents (Elt F) → (⟨S16, .i1⟩ : BufTy).Contents (Elt F)),
    nullary main_c_1 (constantI S_ 32 8#32),
    unary main_c_1 main_v3 (broadcastInDim S16 ![] bcast_S_S16 : (⟨S_, .i32⟩ : BufTy).Contents (Elt F) → (⟨S16, .i32⟩ : BufTy).Contents (Elt F)),
    binary main_v0 main_v3 main_v4 (addi : (⟨S16, .i32⟩ : BufTy).Contents (Elt F) → (⟨S16, .i32⟩ : BufTy).Contents (Elt F) → (⟨S16, .i32⟩ : BufTy).Contents (Elt F)),
    ternary main_v2 main_v4 main_v0 main_v5 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v5 main_v6 (broadcastInDim S16x1 ![0] bcast_S16_S16x1_0 : (⟨S16, .i32⟩ : BufTy).Contents (Elt F) → (⟨S16x1, .i32⟩ : BufTy).Contents (Elt F)),
    binary main_arg2 main_v6 main_v7 ((fun x i => Host.gather gather_S8x4096x4096_S16x1_S16x4096x4096_12_0_n_n_0_1_140964096 x i) : (⟨S8x4096x4096, .f32⟩ : BufTy).Contents (Elt F) → (⟨S16x1, .i32⟩ : BufTy).Contents (Elt F) → (⟨S16x4096x4096, .f32⟩ : BufTy).Contents (Elt F)),
    binary main_arg0 main_v7 main_v8 ((fun l r => Host.dotGeneral dot_S16x1x4096_S16x4096x4096_S16x1x4096_2_1_1_2_0_0 none l r) : (⟨S16x1x4096, .f32⟩ : BufTy).Contents (Elt F) → (⟨S16x4096x4096, .f32⟩ : BufTy).Contents (Elt F) → (⟨S16x1x4096, .f32⟩ : BufTy).Contents (Elt F)),
    unary main_v8 main_v9 (broadcastInDim S16x1x1x4096 ![0, 2, 3] bcast_S16x1x4096_S16x1x1x4096_0_2_3 : (⟨S16x1x4096, .f32⟩ : BufTy).Contents (Elt F) → (⟨S16x1x1x4096, .f32⟩ : BufTy).Contents (Elt F)) ]

set_option maxRecDepth 1024 in
/-- @main is that straight line: the two outlined functions unfolded at their calls, both sides are one chain of
    steps once sequencing is reassociated. -/
theorem main_eq (c : Dev nD) : main (F := F) c = seq ops := by
  simp only [main, fn_remainder.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub ..⟩

/-! ## The composed term -/

/-- The divisor as the outlined remainder computes it, a scalar: eight, guarded against zero by the outlined select. -/
def dvS : IVec S_ 32 :=
  select (cmpi .eq (constantI S_ 32 8#32) (constantI S_ 32 0#32)) (constantI S_ 32 1#32) (constantI S_ 32 8#32)

/-- The truncated remainder of every entry by that divisor. -/
def trem (A : IVec S16 32) : IVec S16 32 := Host.remsi A (broadcastInDim S16 ![] bcast_S_S16 dvS)

/-- The outlined remainder's result: the truncated remainder, moved up by the divisor where it is not zero and its sign
    is not the divisor's. -/
def chain (A : IVec S16 32) : IVec S16 32 :=
  select
    (andi
      (cmpi .ne (cmpi .slt (trem A) (broadcastInDim S16 ![] bcast_S_S16 (constantI S_ 32 0#32)))
        (broadcastInDim S16 ![] bcast_S_S16 (cmpi .slt dvS (constantI S_ 32 0#32))))
      (cmpi .ne (trem A) (broadcastInDim S16 ![] bcast_S_S16 (constantI S_ 32 0#32))))
    (addi (trem A) (broadcastInDim S16 ![] bcast_S_S16 dvS)) (trem A)

/-- The start indices: the wrapped entries, a negative one moved up by eight. -/
def starts (A : IVec S16 32) : IVec S16 32 :=
  select (cmpi .slt (chain A) (broadcastInDim S16 ![] bcast_S_S16 (constantI S_ 32 0#32)))
    (addi (chain A) (broadcastInDim S16 ![] bcast_S_S16 (constantI S_ 32 8#32))) (chain A)

/-- The planes gathered, one per row. -/
def planes (A : IVec S16 32) (W : FVec F S8x4096x4096 .f32) : FVec F S16x4096x4096 .f32 :=
  Host.gather gather_S8x4096x4096_S16x1_S16x4096x4096_12_0_n_n_0_1_140964096 W
    (broadcastInDim S16x1 ![0] bcast_S16_S16x1_0 (starts A))

/-- The whole result: the batched contraction of the rows with their planes, a unit axis added. -/
def val (X : FVec F S16x1x4096 .f32) (A : IVec S16 32) (W : FVec F S8x4096x4096 .f32) : FVec F S16x1x1x4096 .f32 :=
  broadcastInDim S16x1x1x4096 ![0, 2, 3] bcast_S16x1x4096_S16x1x1x4096_0_2_3
    (Host.dotGeneral dot_S16x1x4096_S16x4096x4096_S16x1x4096_2_1_1_2_0_0 none X (planes A W))

attribute [local irreducible] Host.gather in
set_option maxHeartbeats 1000000 in
/-- The fold at the result buffer is that term of the three arguments. -/
theorem out_eq (V : Valuation τ sig (Elt F)) :
    after ops V (main_v9 : DevRef τ sig)
      = val (V (main_arg0 : DevRef τ sig)) (V (main_arg1 : DevRef τ sig)) (V (main_arg2 : DevRef τ sig)) := by
  after_results_simp
  rfl

theorem arg0_eq (V : Valuation τ sig (Elt F)) :
    after ops V (main_arg0 : DevRef τ sig) = V (main_arg0 : DevRef τ sig) := by
  after_results_simp
theorem arg1_eq (V : Valuation τ sig (Elt F)) :
    after ops V (main_arg1 : DevRef τ sig) = V (main_arg1 : DevRef τ sig) := by
  after_results_simp
theorem arg2_eq (V : Valuation τ sig (Elt F)) :
    after ops V (main_arg2 : DevRef τ sig) = V (main_arg2 : DevRef τ sig) := by
  after_results_simp

end AnyValues

/-! ## The indices -/

theorem dvS_apply (i : S_.Idx) : dvS i = Cert.Spec.dv := rfl

/-- Entry by entry the outlined remainder is the wrapped index of the entry. -/
theorem chain_apply (A : IVec S16 32) (i : S16.Idx) : chain A i = Cert.Spec.pm (A i) := rfl

/-- A word that reads non-negative is not below zero. -/
theorem slt_zero_of_toInt_nonneg (r : BitVec 32) (h : 0 ≤ r.toInt) : IntOp.cmpi .slt r 0#32 = 0#1 := by
  have : r.slt 0#32 = false := by
    rw [BitVec.slt_eq_decide]
    simpa using h
  simp [IntOp.cmpi, this]

/-- The wrap of negative indices leaves a wrapped index where it is: it is never negative. -/
theorem starts_apply (A : IVec S16 32) (i : S16.Idx) : starts A i = Cert.Spec.pm (A i) := by
  have h0 : IntOp.cmpi .slt (Cert.Spec.pm (A i)) 0#32 = 0#1 :=
    slt_zero_of_toInt_nonneg _ (by rw [Cert.Spec.pm_toInt]; exact Int.natCast_nonneg _)
  show Scalar.select (IntOp.cmpi .slt (Cert.Spec.pm (A i)) 0#32) (IntOp.addi (Cert.Spec.pm (A i)) 8#32) (Cert.Spec.pm (A i)) = _
  rw [h0, select_zero]

/-! ## The gather at an index -/

section Gather
variable {α : Type}

local notation "GD" => gather_S8x4096x4096_S16x1_S16x4096x4096_12_0_n_n_0_1_140964096

/-- The gather read at row `b`, offsets `d`, `e`: the operand at the row's start index, read signed and clamped into
    `0 … 7`, on the collapsed plane axis, and at the offsets on the two others. -/
theorem gather_plane_apply (W : S8x4096x4096.Idx → α) (idx : IVec S16x1 32) (b : Fin 16) (d e : Fin 4096) :
    Host.gather GD W idx (ix3 b d e)
      = W (ix3 (⟨min (idx (ix2 b (0 : Fin 1))).toInt.toNat 7, by omega⟩ : Fin 8) d e) := by
  unfold Host.gather
  congr 1
  funext a
  refine Fin.ext ?_
  show (GD).start (ix3 b d e) idx a + (GD).batchCoord (ix3 b d e) a + (GD).offCoord (ix3 b d e) a = _
  rw [GatherDims.batchCoord_eq_zero _ _ _ List.not_mem_nil, Nat.add_zero]
  match a with
  | ⟨0, h0⟩ =>
    have hm : (⟨0, h0⟩ : Fin S8x4096x4096.rank) ∈ (GD).startIndexMap := List.mem_singleton.mpr rfl
    rw [GatherDims.offCoord_eq_zero _ _ _ (fun h => ((GatherDims.mem_sKept _ _).mp h).1 (List.mem_singleton.mpr rfl)), Nat.add_zero]
    unfold GatherDims.start
    rw [dif_pos hm]
    have hsi : (GD).siIdx (ix3 b d e) ⟨List.idxOf (⟨0, h0⟩ : Fin S8x4096x4096.rank) (GD).startIndexMap,
        List.idxOf_lt_length_iff.2 hm⟩ = ix2 b (0 : Fin 1) := by
      funext c; refine Fin.ext ?_
      match c with
      | ⟨0, _⟩ => rfl
      | ⟨1, _⟩ => rfl
    rw [hsi]
    rfl
  | ⟨1, h1⟩ =>
    have hs : (GD).start (ix3 b d e) idx ⟨1, h1⟩ = 0 := by
      unfold GatherDims.start
      rw [dif_neg (fun h : (⟨1, h1⟩ : Fin S8x4096x4096.rank) ∈ (GD).startIndexMap =>
        Nat.one_ne_zero (congrArg Fin.val (List.mem_singleton.mp h)))]
    rw [hs, Nat.zero_add]
    rfl
  | ⟨2, h2⟩ =>
    have hs : (GD).start (ix3 b d e) idx ⟨2, h2⟩ = 0 := by
      unfold GatherDims.start
      rw [dif_neg (fun h : (⟨2, h2⟩ : Fin S8x4096x4096.rank) ∈ (GD).startIndexMap =>
        (by decide : (2 : ℕ) ≠ 0) (congrArg Fin.val (List.mem_singleton.mp h)))]
    rw [hs, Nat.zero_add]
    rfl

end Gather

/-! ## The contraction at an index -/

section Dot

local notation "DD" => dot_S16x1x4096_S16x4096x4096_S16x1x4096_2_1_1_2_0_0

/-- The operand indices of the batched contraction, axis by axis: the left operand reads the result's row and unit
    axis and the contraction position; the right one the row, the contraction position and the result's column. -/
theorem lhs_0 (j : S16x1x4096.Idx) (k : (DD).contr.Idx) : ((DD).lhsIdx j k 0 : ℕ) = j 0 := by
  simp [DotDims.lhsIdx, dot_S16x1x4096_S16x4096x4096_S16x1x4096_2_1_1_2_0_0]; rfl
theorem lhs_2 (j : S16x1x4096.Idx) (k : (DD).contr.Idx) : ((DD).lhsIdx j k 2 : ℕ) = k ⟨0, by decide⟩ := by
  simp [DotDims.lhsIdx, dot_S16x1x4096_S16x4096x4096_S16x1x4096_2_1_1_2_0_0]; rfl
theorem rhs_0 (j : S16x1x4096.Idx) (k : (DD).contr.Idx) : ((DD).rhsIdx j k 0 : ℕ) = j 0 := by
  simp [DotDims.rhsIdx, dot_S16x1x4096_S16x4096x4096_S16x1x4096_2_1_1_2_0_0]; rfl
theorem rhs_1 (j : S16x1x4096.Idx) (k : (DD).contr.Idx) : ((DD).rhsIdx j k 1 : ℕ) = k ⟨0, by decide⟩ := by
  simp [DotDims.rhsIdx, dot_S16x1x4096_S16x4096x4096_S16x1x4096_2_1_1_2_0_0]; rfl
theorem rhs_2 (j : S16x1x4096.Idx) (k : (DD).contr.Idx) : ((DD).rhsIdx j k 2 : ℕ) = j 2 := by
  simp [DotDims.rhsIdx, dot_S16x1x4096_S16x4096x4096_S16x1x4096_2_1_1_2_0_0]; rfl

/-- At result index `(b, 0, col)` and contraction position `d` the left operand is read at `(b, 0, d)` … -/
theorem lhsIdx_eq (b : Fin 16) (col d : Fin 4096) :
    (DD).lhsIdx (ix3 b (0 : Fin 1) col) ((contrEquiv1 DD 4096 rfl rfl).symm d) = ix3 b (0 : Fin 1) d := by
  funext a
  match a with
  | ⟨0, _⟩ => exact Fin.ext (lhs_0 _ _)
  | ⟨1, _⟩ => exact Subsingleton.elim (α := Fin 1) _ _
  | ⟨2, _⟩ => exact Fin.ext ((lhs_2 _ _).trans (contrEquiv1_symm_val DD 4096 rfl rfl d))

/-- … and the right operand at `(b, d, col)`. -/
theorem rhsIdx_eq (b : Fin 16) (col d : Fin 4096) :
    (DD).rhsIdx (ix3 b (0 : Fin 1) col) ((contrEquiv1 DD 4096 rfl rfl).symm d) = ix3 b d col := by
  funext a
  match a with
  | ⟨0, _⟩ => exact Fin.ext (rhs_0 _ _)
  | ⟨1, _⟩ => exact Fin.ext ((rhs_1 _ _).trans (contrEquiv1_symm_val DD 4096 rfl rfl d))
  | ⟨2, _⟩ => exact Fin.ext (rhs_2 _ _)

end Dot

/-! ## The result -/

section Value

local notation "DD" => dot_S16x1x4096_S16x4096x4096_S16x1x4096_2_1_1_2_0_0

/-- The plane gathered for row `b` is the plane of the row's expert: the start index is the wrapped index, which read
    signed is the expert's number, below eight, so the clamp leaves it. -/
theorem planes_apply (A : IVec S16 32) (W : FVec Ideal S8x4096x4096 .f32) (b : Fin 16) (d e : Fin 4096) :
    planes (F := Ideal) A W (ix3 b d e) = W (ix3 (Cert.Spec.ex (A (ix1 b))) d e) := by
  unfold planes
  refine (gather_plane_apply W _ b d e).trans ?_
  have hb : broadcastInDim S16x1 ![0] bcast_S16_S16x1_0 (starts A) (ix2 b (0 : Fin 1)) = Cert.Spec.pm (A (ix1 b)) := by
    refine (broadcastInDim_apply _ _ _ _ (ix1 b) ?_).trans (starts_apply A _)
    intro a
    match a with
    | ⟨0, _⟩ => rfl
  refine congrArg (fun p : Fin 8 => W (ix3 p d e)) (Fin.ext ?_)
  show min (broadcastInDim S16x1 ![0] bcast_S16_S16x1_0 (starts A) (ix2 b (0 : Fin 1))).toInt.toNat 7 = (Cert.Spec.ex (A (ix1 b))).val
  rw [hb, Cert.Spec.pm_toInt, Int.toNat_natCast]
  have := (Cert.Spec.ex (A (ix1 b))).isLt
  omega

/-- The composed term is the specified array: at `(b, 0, 0, col)` the added unit axis reads the contraction at
    `(b, 0, col)`, which is the sum over the contraction position of the row's entry times the entry of the row's
    expert plane. -/
theorem val_eq (X : FVec Ideal S16x1x4096 .f32) (A : IVec S16 32) (W : FVec Ideal S8x4096x4096 .f32) :
    val (F := Ideal) X A W = Cert.Spec.G X A W := by
  funext j
  obtain ⟨b, u, v, col, rfl⟩ : ∃ (b : Fin 16) (u v : Fin 1) (col : Fin 4096), j = ix4 b u v col :=
    ⟨_, _, _, _, eq_ix4 j⟩
  obtain rfl : u = 0 := Subsingleton.elim _ _
  obtain rfl : v = 0 := Subsingleton.elim _ _
  refine Eq.trans ?_ (Cert.Spec.G_apply X A W b col).symm
  unfold val Cert.Spec.Gat
  refine (broadcastInDim_apply _ _ _ _ (ix3 b (0 : Fin 1) col) ?_).trans ?_
  · intro a
    match a with
    | ⟨0, _⟩ => rfl
    | ⟨1, _⟩ => rfl
    | ⟨2, _⟩ => rfl
  refine (Ideal.dotGeneral_apply DD none .single X (planes A W) _).trans ?_
  rw [← Equiv.sum_comp (contrEquiv1 DD 4096 rfl rfl).symm]
  refine Finset.sum_congr rfl fun d _ => ?_
  rw [lhsIdx_eq, rhsIdx_eq, planes_apply]

end Value

/-! ## The run -/

/-- Every weakly fair execution of the reference's @main terminates with its result at `Spec.G` of the arguments and
    the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9)
          = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c main_v9).trans (out_eq _)).trans (val_eq _ _ _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefValue

end
-- ==== Proof.lean ====
/-
  The certificate. A batch of sixteen rows, each routed to one of eight experts by its index taken modulo eight, is
  multiplied by its expert's 4096 × 4096 plane. The kernel walks the column tiles and, inside a tile, all eight experts:
  it multiplies every row by the expert's tile, keeps the rows routed there by a 0/1 weight, and adds up; the reference
  gathers each row's plane and contracts. Over the extended reals the weighted sum keeps the routed expert's product
  alone, so both end at the same array (`Spec.G`): the kernel's run is `KerValue.run`, the reference's `RefValue.run`.
  The frames of the two kernel programs are the generated ones; the reference's frame is its run with the result dropped;
  the idealization rewrote nothing, so there is nothing to preserve.
-/
import proofs.«429543_j24137716203790_2_alg».proof.Defs
import proofs.«429543_j24137716203790_2_alg».proof.Proof.Gen.Kernel
import proofs.«429543_j24137716203790_2_alg».proof.Proof.Gen.Kernel.Frame
import proofs.«429543_j24137716203790_2_alg».proof.Proof.Gen.KernelIdeal
import proofs.«429543_j24137716203790_2_alg».proof.Proof.Gen.KernelIdeal.Frame
import proofs.«429543_j24137716203790_2_alg».proof.Proof.Gen.ReferenceIdeal
import proofs.«429543_j24137716203790_2_alg».proof.Proof.Gen.Pre_finite_inputs
import proofs.«429543_j24137716203790_2_alg».proof.Proof.KernelValue
import proofs.«429543_j24137716203790_2_alg».proof.Proof.RefValue
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefValue.run m ρ)

theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
